-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v17 : BitVec 32 := Scalar.muli arg1 c400_i32
  let v18 : Index := Scalar.indexCast v17
  let c0_11 : Index := 0#32
  ![v18.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h1 : k0_cond1 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsPhases.lean ====
/-
  The kernel body's two phases, each as a triple over what its buffers hold.

  The grid is 2 × 25.  At a point of the first phase (first coordinate 0, second coordinate i) the body reads its block
  of 400 rows of the adjacency, the features, the first weights and bias, and stores `max ((adj_blk · x) · w1 + b1, 0)`
  into rows 400·i … 400·i + 399 of the hidden layer kept in scratch; every other row of the scratch, the output window
  and the inputs keep what they held.  At a point of the second phase (first coordinate 1) it reads the whole hidden
  layer from the scratch and stores `(adj_blk · h) · w2 + b2` into the whole output window; the scratch and the inputs
  keep what they held.
-/
import proofs.«151624_g39788577030959_cont_8to1_b_55_6_alg».proof.Proof.Gen.Kernel.Frame
import proofs.«151624_g39788577030959_cont_8to1_b_55_6_alg».proof.Proof.Gen.Kernel.Skeleton
import Idealize.ShloMosaic.Lib.Pipeline.Value

set_option maxRecDepth 16384

noncomputable section

namespace Cert.Kernel.Phases

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The point is in the first phase. -/
abbrev condA (i : grid0.Coords) : Prop := k0_cond1 i = 1#1
/-- The point is in the second phase. -/
abbrev condB (i : grid0.Coords) : Prop := k0_cond2 i = 1#1

/-- The rows of the hidden layer a first-phase point fills: 400 rows from the point's offset, all 128 columns. -/
abbrev rowsRect (i : grid0.Coords) (h : condA i) : Rect S10000x128 :=
  Rect.unit (s := S10000x128) (k0_off1 i) S400x128.size (Facts₀.k0_off1_inb i h)

/-- The offsets of a whole-buffer access are all zero. -/
theorem hz2 : (![0, 0] : Fin 2 → Nat) = fun _ => 0 := by funext a; match a with | ⟨0, _⟩ => rfl | ⟨1, _⟩ => rfl

/-- A store through the whole shape leaves its payload. -/
theorem read_writes_whole {sig' : RefSig} {κ' : Kind} {sp' : Space} {S : Shape} {e : EltTy} {Val : EltTy → Type}
    (v : View sig' κ' sp' S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; funext x
  have := View.read_writes_cons_emb v f (Rect.unit (fun _ => 0) S.size inb) w [] x
  rwa [show (Rect.unit (fun _ => 0) S.size inb).emb x = x from Rect.emb_whole_apply S x] at this

/-- One store through a rectangle: inside it the payload, outside it what was there. -/
theorem read_after_store {sig' : RefSig} {κ' : Kind} {sp' : Space} {S : Shape} {e : EltTy} {Val : EltTy → Type}
    (v : View sig' κ' sp' S e) (f : v.ty.Contents Val) (r : Rect S) (w : r.shape.Idx → Val e) :
    (∀ x, v.read Val (v.writes Val f [(⟨r, w⟩ : View.Piece Val S e)]) (r.emb x) = w x)
      ∧ (∀ y, y ∉ r.set → v.read Val (v.writes Val f [(⟨r, w⟩ : View.Piece Val S e)]) y = v.read Val f y) :=
  ⟨fun x => View.read_writes_cons_emb v f r w [] x,
   fun y hy => View.read_writes_apply_of_forall_not_mem v f y _ (by intro p hp; rw [List.mem_singleton] at hp; subst hp; exact hy)⟩

set_option maxHeartbeats 1000000 in
/-- A first-phase point: the point's rows of the scratch take the clamped first layer of the point's block of the
    adjacency; the rest of the scratch, the output window and the inputs are as they were. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (hc0 : condA i) (hc1 : ¬condB i)
    (x0 : Vec F S400x10000 .f32) (x1 : Vec F S10000x128 .f32) (x2 : Vec F S128x128 .f32) (x3 : Vec F S1x128 .f32) (x4 : Vec F S128x128 .f32) (x5 : Vec F S1x128 .f32) (xo : Vec F S400x128 .f32) (xs : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
                ∗ (∃ d', ⌜(∀ x, d' ((rowsRect i hc0).emb x) = k0_pay1 x0 x1 x2 x3 x) ∧ (∀ y, y ∉ (rowsRect i hc0).set → d' y = xs y)⌝ ∗ owns (c : Thread nD τ) arg9 fullShare d')) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    simp only [View.readAt_eq_ld, harg2.read_unread, harg3.read_unread, harg4.read_unread, harg5.read_unread,
      View.ld_unit_zero (S := S400x10000) hz2, View.ld_unit_zero (S := S10000x128) hz2, View.ld_unit_zero (S := S128x128) hz2, View.ld_unit_zero (S := S1x128) hz2]
    have hst := read_after_store arg9.view (harg9.unread xs) (rowsRect i hc0) (k0_pay1 x0 x1 x2 x3)
    iexists _
    isplitr
    · ipureintro
      exact ⟨hst.1, fun y hy => (hst.2 y hy).trans (congrFun (harg9.read_unread xs) y)⟩
    iexists _; isplitr; · ipureintro; rfl
    iexact HS0

set_option maxHeartbeats 1000000 in
/-- A second-phase point: the output window takes the second layer of the point's block of the adjacency over the
    hidden layer the scratch holds; the scratch and the inputs are as they were. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (hc0 : ¬condA i) (hc1 : condB i)
    (x0 : Vec F S400x10000 .f32) (x1 : Vec F S10000x128 .f32) (x2 : Vec F S128x128 .f32) (x3 : Vec F S1x128 .f32) (x4 : Vec F S128x128 .f32) (x5 : Vec F S1x128 .f32) (xo : Vec F S400x128 .f32) (xs : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 x0 xs x4 x5)
                ∗ owns (c : Thread nD τ) arg9 fullShare xs) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [read_writes_whole _ _ hz2]
      simp only [View.readAt_eq_ld, harg2.read_unread, harg9.read_unread, harg6.read_unread, harg7.read_unread,
        View.ld_unit_zero (S := S400x10000) hz2, View.ld_unit_zero (S := S10000x128) hz2, View.ld_unit_zero (S := S128x128) hz2, View.ld_unit_zero (S := S1x128) hz2]
    iexists _; isplitr; · ipureintro; exact harg9.read_unread _
    iexact HS0

end Cert.Kernel.Phases
end
-- ==== Proof.BitsSchedule.lean ====
/-
  The kernel over its whole grid: what the scratch holds before each point, what each point leaves in the output
  window, and the run.

  The 50 points run in order: points 0 … 24 are the first phase, points 25 … 49 the second.  Before point n the scratch
  holds, in the rows of every first-phase point before n, that point's block of the hidden layer (`Filled`); the other
  rows hold anything.  A first-phase point adds its own rows (they lie apart from the earlier points' rows); a
  second-phase point leaves the scratch alone.  From point 25 on every row is filled, so the scratch holds the one
  array `hidAll`, and a second-phase point leaves in the output window the second layer of its block of the adjacency
  over `hidAll`.  During the first phase the output window is at rest: the body stores nothing into it and the pipeline
  does not write it back.
-/
import proofs.«151624_g39788577030959_cont_8to1_b_55_6_alg».proof.Proof.BitsPhases
import Idealize.ShloMosaic.Lib.ValueIdx

set_option maxRecDepth 16384

noncomputable section

namespace Cert.Kernel.Schedule

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Phases

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's closed forms -/

/-- The first phase is the points before 25; -/
theorem condA_iff : ∀ t : Fin cfg0.N, condA (grid0.coords t) ↔ t.val < 25 :=
  (by decide +kernel : ∀ t : Fin grid0.N, condA (grid0.coords t) ↔ t.val < 25)
/-- the second phase the points from 25 on. -/
theorem condB_iff : ∀ t : Fin cfg0.N, condB (grid0.coords t) ↔ 25 ≤ t.val :=
  (by decide +kernel : ∀ t : Fin grid0.N, condB (grid0.coords t) ↔ 25 ≤ t.val)
/-- A point's rows start at 400 times its second coordinate. -/
theorem rowsOff : ∀ t : Fin cfg0.N, k0_off1 (grid0.coords t) = ![400 * (t.val % 25), 0] :=
  (by decide +kernel : ∀ t : Fin grid0.N, k0_off1 (grid0.coords t) = ![400 * (t.val % 25), 0])

/-- The input windows are never at rest. -/
theorem liveIn_0 : ∀ t : Fin cfg0.N, cfg0.idle 0 (grid0.coords t) = false := by decide +kernel
theorem liveIn_1 : ∀ t : Fin cfg0.N, cfg0.idle 1 (grid0.coords t) = false := by decide +kernel
theorem liveIn_2 : ∀ t : Fin cfg0.N, cfg0.idle 2 (grid0.coords t) = false := by decide +kernel
theorem liveIn_3 : ∀ t : Fin cfg0.N, cfg0.idle 3 (grid0.coords t) = false := by decide +kernel
theorem liveIn_4 : ∀ t : Fin cfg0.N, cfg0.idle 4 (grid0.coords t) = false := by decide +kernel
theorem liveIn_5 : ∀ t : Fin cfg0.N, cfg0.idle 5 (grid0.coords t) = false := by decide +kernel
/-- In the first phase the output window is at rest and is not written back; -/
theorem outRests : ∀ t : Fin cfg0.N, t.val < 25 → cfg0.idle 6 (grid0.coords t) = true ∧ (cfg0.win 6).flush t = false :=
  (by decide +kernel : ∀ t : Fin grid0.N, t.val < 25 → cfg0.idle 6 (grid0.coords t) = true ∧ win0_6.flush t = false)
/-- in the second it is stored into and written back at every point. -/
theorem outMoves : ∀ t : Fin cfg0.N, 25 ≤ t.val → cfg0.idle 6 (grid0.coords t) = false ∧ (cfg0.win 6).flush t = true :=
  (by decide +kernel : ∀ t : Fin grid0.N, 25 ≤ t.val → cfg0.idle 6 (grid0.coords t) = false ∧ win0_6.flush t = true)

/-! ## The buffers the body is called on -/

abbrev ms0 (t : Fin cfg0.N) : Memref sig .tc .vmem S400x10000 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S10000x128 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S128x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x128 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S128x128 .f32 := win0_4.stage (cfg0.slots t 4)
abbrev hs4 (t : Fin cfg0.N) : (ms4 t).IsWhole := Facts₀.hstage0_4 ((cfg0.slots t 4).cast Facts₀.nbuf0_4)
abbrev ms5 (t : Fin cfg0.N) : Memref sig .tc .vmem S1x128 .f32 := win0_5.stage (cfg0.slots t 5)
abbrev hs5 (t : Fin cfg0.N) : (ms5 t).IsWhole := Facts₀.hstage0_5 ((cfg0.slots t 5).cast Facts₀.nbuf0_5)
abbrev ms6 (t : Fin cfg0.N) : Memref sig .tc .vmem S400x128 .f32 := win0_6.stage (cfg0.slots t 6)
abbrev hs6 (t : Fin cfg0.N) : (ms6 t).IsWhole := Facts₀.hstage0_6 ((cfg0.slots t 6).cast Facts₀.nbuf0_6)
/-- The scratch that keeps the hidden layer. -/
abbrev scM : Memref sig .tc .vmem S10000x128 .f32 := Memref.whole cc0_scratch0

/-- What the region hands its body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The hidden layer, block by block and whole -/

/-- The block of the hidden layer a point computes from its windows' blocks. -/
def hidBlk (c : Dev nD) (t : Fin cfg0.N) : FVec F S400x128 .f32 :=
  k0_pay1 (iblk m c 0 t) (iblk m c 1 t) (iblk m c 2 t) (iblk m c 3 t)

/-- Before point `n` the scratch `d` holds, in the rows of every first-phase point before `n`, that point's block. -/
def Filled (c : Dev nD) (n : ℕ) (d : Vec F S10000x128 .f32) : Prop :=
  ∀ (t : Fin cfg0.N) (h : condA (grid0.coords t)), t.val < n →
    ∀ x, d ((rowsRect (grid0.coords t) h).emb x) = hidBlk m c t x

/-- The point whose rows hold row `r`. -/
def rowPoint (y : S10000x128.Idx) : Fin cfg0.N :=
  ⟨(y 0).val / 400, by have h : (y 0).val < 10000 := (y 0).isLt; have : cfg0.N = 50 := N_0; omega⟩

theorem rowPoint_val (y : S10000x128.Idx) : (rowPoint y).val = (y 0).val / 400 := rfl

/-- The whole hidden layer: row `r` is row `r % 400` of the block of point `r / 400`. -/
def hidAll (c : Dev nD) : Vec F S10000x128 .f32 := fun y =>
  hidBlk m c (rowPoint y) (ix2 ⟨(y 0).val % 400, Nat.mod_lt _ (by norm_num)⟩ (y 1))

/-- A coordinate of a unit-stride rectangle's point is the offset plus the coordinate inside. -/
theorem emb_unit_val {s : Shape} (off size : Fin s.rank → Nat) (inb : ∀ a, off a + size a ≤ s.size a)
    (x : (Rect.unit off size inb).shape.Idx) (a : Fin s.rank) :
    (((Rect.unit off size inb).emb x) a : ℕ) = off a + 1 * (x a : ℕ) := rfl

/-- Every entry of the hidden layer lies in the rows of the point `row / 400`, at row `row % 400` of them. -/
theorem row_cover (y : S10000x128.Idx) :
    ∃ (h : condA (grid0.coords (rowPoint y))),
      (rowsRect (grid0.coords (rowPoint y)) h).emb
        (ix2 ⟨(y 0).val % 400, Nat.mod_lt _ (by norm_num)⟩ (y 1)) = y := by
  have hlt : (y 0).val < 10000 := (y 0).isLt
  have h : condA (grid0.coords (rowPoint y)) :=
    (condA_iff _).mpr (show (y 0).val / 400 < 25 by omega)
  refine ⟨h, ?_⟩
  have e := rowsOff (rowPoint y)
  funext a
  apply Fin.ext
  match a with
  | ⟨0, _⟩ =>
    have e0 : k0_off1 (grid0.coords (rowPoint y)) 0 = 400 * ((y 0).val / 400 % 25) := congrFun e 0
    show k0_off1 (grid0.coords (rowPoint y)) 0 + 1 * ((y 0).val % 400) = (y 0).val
    rw [e0]; omega
  | ⟨1, _⟩ =>
    have e1 : k0_off1 (grid0.coords (rowPoint y)) 1 = 0 := congrFun e 1
    show k0_off1 (grid0.coords (rowPoint y)) 1 + 1 * (y 1).val = (y 1).val
    rw [e1]; omega

/-- A first-phase point's rows lie apart from an earlier first-phase point's rows. -/
theorem rows_apart (t t' : Fin cfg0.N) (h : condA (grid0.coords t)) (h' : condA (grid0.coords t')) (hlt : t'.val < t.val)
    (x : (rowsRect (grid0.coords t') h').shape.Idx) :
    (rowsRect (grid0.coords t') h').emb x ∉ (rowsRect (grid0.coords t) h).set := by
  have ht : t.val < 25 := (condA_iff t).mp h
  have hx : (x 0 : ℕ) < 400 := (x 0).isLt
  rw [Rect.mem_set_unit]
  intro hall
  have ht' : t'.val < 25 := (condA_iff t').mp h'
  have h0 : k0_off1 (grid0.coords t) 0 ≤ k0_off1 (grid0.coords t') 0 + 1 * (x 0 : ℕ) := (hall 0).1
  have et : k0_off1 (grid0.coords t) 0 = 400 * (t.val % 25) := congrFun (rowsOff t) 0
  have et' : k0_off1 (grid0.coords t') 0 = 400 * (t'.val % 25) := congrFun (rowsOff t') 0
  rw [et, et'] at h0
  omega

/-- A first-phase point fills its own rows and keeps the earlier points' rows. -/
theorem filled_step (c : Dev nD) (t : Fin cfg0.N) (ht : condA (grid0.coords t)) (d d' : Vec F S10000x128 .f32)
    (hd : Filled m c t.val d)
    (h1 : ∀ x, d' ((rowsRect (grid0.coords t) ht).emb x) = k0_pay1 (iblk m c 0 t) (iblk m c 1 t) (iblk m c 2 t) (iblk m c 3 t) x)
    (h2 : ∀ y, y ∉ (rowsRect (grid0.coords t) ht).set → d' y = d y) : Filled m c (t.val + 1) d' := by
  intro t' h' hlt x
  by_cases e : t' = t
  · subst e; exact h1 x
  · have hlt' : t'.val < t.val := by
      have : t'.val ≠ t.val := fun hv => e (Fin.ext hv)
      omega
    rw [h2 _ (rows_apart t t' ht h' hlt' x)]
    exact hd t' h' hlt' x

/-- A second-phase point leaves the scratch as filled as it was. -/
theorem filled_keep (c : Dev nD) (t : Fin cfg0.N) (ht : 25 ≤ t.val) (d : Vec F S10000x128 .f32)
    (hd : Filled m c t.val d) : Filled m c (t.val + 1) d := by
  intro t' h' _ x
  exact hd t' h' (by have := (condA_iff t').mp h'; omega) x

/-- Once every first-phase point has run, the scratch is the whole hidden layer. -/
theorem filled_full (c : Dev nD) (n : ℕ) (d : Vec F S10000x128 .f32) (hd : Filled m c n d) (hn : 25 ≤ n) :
    d = hidAll m c := by
  funext y
  obtain ⟨h, e⟩ := row_cover y
  have hlt : (y 0).val < 10000 := (y 0).isLt
  have := hd (rowPoint y) h (show (y 0).val / 400 < n by omega)
    (ix2 ⟨(y 0).val % 400, Nat.mod_lt _ (by norm_num)⟩ (y 1))
  rw [e] at this
  exact this

/-! ## The proof data -/

/-- What a second-phase point leaves in the output window: the second layer of its block of the adjacency over the
    whole hidden layer. -/
def outBlk (c : Dev nD) (t : Fin cfg0.N) : FVec F S400x128 .f32 :=
  k0_pay2 (iblk m c 0 t) (hidAll m c) (iblk m c 4 t) (iblk m c 5 t)

/-- The invariant before point `n`: the scratch filled up to `n`, and the generator register. -/
def Inv (c : Dev nD) (n : ℕ) : sProp 𝕄 :=
  iprop(iprop(∃ d, ⌜Filled m c n d⌝ ∗ owns (c : Thread nD τ) scM fullShare d) ∗ (∃ r, prngReg c r))

/-- The proof data of the one pipeline on core `c`: the arrays as the region finds them; after the body each input
    window at its block, the output window at `outBlk` (read only at second-phase points); the invariant `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk m c t := by dsimp only [dats]

/-- Each input window's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point: a first-phase point by `runA` (its rows added to the filled scratch, the output window
    handed back as found), a second-phase point by `runB` (the scratch, by then the whole hidden layer, kept; the output
    window at `outBlk`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rewrite [show (dats m 0 c).owesAt () t.succ = (dats m 0 c).owesAt () t.castSucc from rfl]
  rewrite [show (dats m 0 c).Φ t.succ = Inv m c (t.val + 1) from rfl, show (dats m 0 c).Φ t.castSucc = Inv m c t.val from rfl]
  rewrite [show (dats m 0 c).leavesExact 0 t = owns (c : Thread nD τ) (ms0 t) fullShare ((dats m 0 c).after 0 t) from by
    unfold Dat.leavesExact; rw [liveIn_0 t], after_0]
  rewrite [show (dats m 0 c).leavesExact 1 t = owns (c : Thread nD τ) (ms1 t) fullShare ((dats m 0 c).after 1 t) from by
    unfold Dat.leavesExact; rw [liveIn_1 t], after_1]
  rewrite [show (dats m 0 c).leavesExact 2 t = owns (c : Thread nD τ) (ms2 t) fullShare ((dats m 0 c).after 2 t) from by
    unfold Dat.leavesExact; rw [liveIn_2 t], after_2]
  rewrite [show (dats m 0 c).leavesExact 3 t = owns (c : Thread nD τ) (ms3 t) fullShare ((dats m 0 c).after 3 t) from by
    unfold Dat.leavesExact; rw [liveIn_3 t], after_3]
  rewrite [show (dats m 0 c).leavesExact 4 t = owns (c : Thread nD τ) (ms4 t) fullShare ((dats m 0 c).after 4 t) from by
    unfold Dat.leavesExact; rw [liveIn_4 t], after_4]
  rewrite [show (dats m 0 c).leavesExact 5 t = owns (c : Thread nD τ) (ms5 t) fullShare ((dats m 0 c).after 5 t) from by
    unfold Dat.leavesExact; rw [liveIn_5 t], after_5]
  have hN : t.val < 50 := lt_of_lt_of_eq t.isLt (show cfg0.N = 50 from N_0)
  unfold Inv
  by_cases h0 : t.val < 25
  · rewrite [Dat.leavesExact_idle (dats m 0 c) 6 t (outRests t h0).1 (outRests t h0).2]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ ((condA_iff t).mpr h0) (fun h => absurd ((condB_iff t).mp h) (by omega)) (iblk m c 0 t) (iblk m c 1 t) (iblk m c 2 t) (iblk m c 3 t) (iblk m c 4 t) (iblk m c 5 t) _ d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%d', %hd', HS⟩⟩
    isplitl [HS Hg]
    · isplitl [HS]
      · iexists d'; isplitr
        · ipureintro; exact filled_step m c t ((condA_iff t).mpr h0) d d' hd hd'.1 hd'.2
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 25 ≤ t.val := by omega
    rewrite [show (dats m 0 c).leavesExact 6 t = owns (c : Thread nD τ) (ms6 t) fullShare ((dats m 0 c).after 6 t) from by
      unfold Dat.leavesExact; rw [(outMoves t h1).1], after_6]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    obtain rfl := filled_full m c t.val d hd h1
    iapply ((runB c (grid0.coords t) _ _ _ _ _ _ _ _ _ _ _ _ _ _ _ _ (fun h => absurd ((condA_iff t).mp h) h0) ((condB_iff t).mpr h1) (iblk m c 0 t) (iblk m c 1 t) (iblk m c 2 t) (iblk m c 3 t) (iblk m c 4 t) (iblk m c 5 t) _ (hidAll m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists (hidAll m c); isplitr
        · ipureintro; exact filled_keep m c t h1 _ hd
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is filled yet. -/
theorem hin (c : Dev nD) : Pipeline.ΦA spec0 c ⊢ (dats m 0 c).Φ 0 := by
  rewrite [show (dats m 0 c).Φ 0 = Inv m c 0 from rfl, PhiA_eq]
  unfold Inv
  iintro ⟨⟨%d, HS⟩, Hg⟩
  isplitl [HS]
  · iexists d; isplitr
    · ipureintro; intro t _ hlt; exact absurd hlt (Nat.not_lt_zero _)
    iexact HS
  iexact Hg

/-- After the last point the invariant gives the scratch back at some contents. -/
theorem hout (c : Dev nD) : (dats m 0 c).Φ (Fin.last cfg0.N) ⊢ Pipeline.ΦA spec0 c := by
  rewrite [show (dats m 0 c).Φ (Fin.last cfg0.N) = Inv m c cfg0.N from rfl, PhiA_eq]
  unfold Inv
  iintro ⟨⟨%d, -, HS⟩, Hg⟩
  isplitl [HS]
  · iexists d; iexact HS
  iexact Hg

/-! ## The run and the frame -/

set_option backward.isDefEq.respectTransparency.types false in
/-- Every weakly fair execution of the program terminates, the windows' arrays at what the write-backs of the proof data
    leave and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Schedule

end
-- ==== Proof.IdealPhases.lean ====
/-
  The kernel body's two phases, each as a triple over what its buffers hold.

  The grid is 2 × 25.  At a point of the first phase (first coordinate 0, second coordinate i) the body reads its block
  of 400 rows of the adjacency, the features, the first weights and bias, and stores `max ((adj_blk · x) · w1 + b1, 0)`
  into rows 400·i … 400·i + 399 of the hidden layer kept in scratch; every other row of the scratch, the output window
  and the inputs keep what they held.  At a point of the second phase (first coordinate 1) it reads the whole hidden
  layer from the scratch and stores `(adj_blk · h) · w2 + b2` into the whole output window; the scratch and the inputs
  keep what they held.
-/
import proofs.«151624_g39788577030959_cont_8to1_b_55_6_alg».proof.Proof.Gen.KernelIdeal.Frame
import proofs.«151624_g39788577030959_cont_8to1_b_55_6_alg».proof.Proof.Gen.KernelIdeal.Skeleton
import Idealize.ShloMosaic.Lib.Pipeline.Value

set_option maxRecDepth 16384

noncomputable section

namespace Cert.KernelIdeal.Phases

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The point is in the first phase. -/
abbrev condA (i : grid0.Coords) : Prop := k0_cond1 i = 1#1
/-- The point is in the second phase. -/
abbrev condB (i : grid0.Coords) : Prop := k0_cond2 i = 1#1

/-- The rows of the hidden layer a first-phase point fills: 400 rows from the point's offset, all 128 columns. -/
abbrev rowsRect (i : grid0.Coords) (h : condA i) : Rect S10000x128 :=
  Rect.unit (s := S10000x128) (k0_off1 i) S400x128.size (Facts₀.k0_off1_inb i h)

/-- The offsets of a whole-buffer access are all zero. -/
theorem hz2 : (![0, 0] : Fin 2 → Nat) = fun _ => 0 := by funext a; match a with | ⟨0, _⟩ => rfl | ⟨1, _⟩ => rfl

/-- A store through the whole shape leaves its payload. -/
theorem read_writes_whole {sig' : RefSig} {κ' : Kind} {sp' : Space} {S : Shape} {e : EltTy} {Val : EltTy → Type}
    (v : View sig' κ' sp' S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; funext x
  have := View.read_writes_cons_emb v f (Rect.unit (fun _ => 0) S.size inb) w [] x
  rwa [show (Rect.unit (fun _ => 0) S.size inb).emb x = x from Rect.emb_whole_apply S x] at this

/-- One store through a rectangle: inside it the payload, outside it what was there. -/
theorem read_after_store {sig' : RefSig} {κ' : Kind} {sp' : Space} {S : Shape} {e : EltTy} {Val : EltTy → Type}
    (v : View sig' κ' sp' S e) (f : v.ty.Contents Val) (r : Rect S) (w : r.shape.Idx → Val e) :
    (∀ x, v.read Val (v.writes Val f [(⟨r, w⟩ : View.Piece Val S e)]) (r.emb x) = w x)
      ∧ (∀ y, y ∉ r.set → v.read Val (v.writes Val f [(⟨r, w⟩ : View.Piece Val S e)]) y = v.read Val f y) :=
  ⟨fun x => View.read_writes_cons_emb v f r w [] x,
   fun y hy => View.read_writes_apply_of_forall_not_mem v f y _ (by intro p hp; rw [List.mem_singleton] at hp; subst hp; exact hy)⟩

set_option maxHeartbeats 1000000 in
/-- A first-phase point: the point's rows of the scratch take the clamped first layer of the point's block of the
    adjacency; the rest of the scratch, the output window and the inputs are as they were. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (hc0 : condA i) (hc1 : ¬condB i)
    (x0 : Vec F S400x10000 .f32) (x1 : Vec F S10000x128 .f32) (x2 : Vec F S128x128 .f32) (x3 : Vec F S1x128 .f32) (x4 : Vec F S128x128 .f32) (x5 : Vec F S1x128 .f32) (xo : Vec F S400x128 .f32) (xs : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
                ∗ (∃ d', ⌜(∀ x, d' ((rowsRect i hc0).emb x) = k0_pay1 x0 x1 x2 x3 x) ∧ (∀ y, y ∉ (rowsRect i hc0).set → d' y = xs y)⌝ ∗ owns (c : Thread nD τ) arg9 fullShare d')) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    simp only [View.readAt_eq_ld, harg2.read_unread, harg3.read_unread, harg4.read_unread, harg5.read_unread,
      View.ld_unit_zero (S := S400x10000) hz2, View.ld_unit_zero (S := S10000x128) hz2, View.ld_unit_zero (S := S128x128) hz2, View.ld_unit_zero (S := S1x128) hz2]
    have hst := read_after_store arg9.view (harg9.unread xs) (rowsRect i hc0) (k0_pay1 x0 x1 x2 x3)
    iexists _
    isplitr
    · ipureintro
      exact ⟨hst.1, fun y hy => (hst.2 y hy).trans (congrFun (harg9.read_unread xs) y)⟩
    iexists _; isplitr; · ipureintro; rfl
    iexact HS0

set_option maxHeartbeats 1000000 in
/-- A second-phase point: the output window takes the second layer of the point's block of the adjacency over the
    hidden layer the scratch holds; the scratch and the inputs are as they were. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (hc0 : ¬condA i) (hc1 : condB i)
    (x0 : Vec F S400x10000 .f32) (x1 : Vec F S10000x128 .f32) (x2 : Vec F S128x128 .f32) (x3 : Vec F S1x128 .f32) (x4 : Vec F S128x128 .f32) (x5 : Vec F S1x128 .f32) (xo : Vec F S400x128 .f32) (xs : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 x0 xs x4 x5)
                ∗ owns (c : Thread nD τ) arg9 fullShare xs) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [read_writes_whole _ _ hz2]
      simp only [View.readAt_eq_ld, harg2.read_unread, harg9.read_unread, harg6.read_unread, harg7.read_unread,
        View.ld_unit_zero (S := S400x10000) hz2, View.ld_unit_zero (S := S10000x128) hz2, View.ld_unit_zero (S := S128x128) hz2, View.ld_unit_zero (S := S1x128) hz2]
    iexists _; isplitr; · ipureintro; exact harg9.read_unread _
    iexact HS0

end Cert.KernelIdeal.Phases
end
-- ==== Proof.IdealSchedule.lean ====
/-
  The kernel over its whole grid: what the scratch holds before each point, what each point leaves in the output
  window, and the run.

  The 50 points run in order: points 0 … 24 are the first phase, points 25 … 49 the second.  Before point n the scratch
  holds, in the rows of every first-phase point before n, that point's block of the hidden layer (`Filled`); the other
  rows hold anything.  A first-phase point adds its own rows (they lie apart from the earlier points' rows); a
  second-phase point leaves the scratch alone.  From point 25 on every row is filled, so the scratch holds the one
  array `hidAll`, and a second-phase point leaves in the output window the second layer of its block of the adjacency
  over `hidAll`.  During the first phase the output window is at rest: the body stores nothing into it and the pipeline
  does not write it back.
-/
import proofs.«151624_g39788577030959_cont_8to1_b_55_6_alg».proof.Proof.IdealPhases
import Idealize.ShloMosaic.Lib.ValueIdx

set_option maxRecDepth 16384

noncomputable section

namespace Cert.KernelIdeal.Schedule

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Phases

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's closed forms -/

/-- The first phase is the points before 25; -/
theorem condA_iff : ∀ t : Fin cfg0.N, condA (grid0.coords t) ↔ t.val < 25 :=
  (by decide +kernel : ∀ t : Fin grid0.N, condA (grid0.coords t) ↔ t.val < 25)
/-- the second phase the points from 25 on. -/
theorem condB_iff : ∀ t : Fin cfg0.N, condB (grid0.coords t) ↔ 25 ≤ t.val :=
  (by decide +kernel : ∀ t : Fin grid0.N, condB (grid0.coords t) ↔ 25 ≤ t.val)
/-- A point's rows start at 400 times its second coordinate. -/
theorem rowsOff : ∀ t : Fin cfg0.N, k0_off1 (grid0.coords t) = ![400 * (t.val % 25), 0] :=
  (by decide +kernel : ∀ t : Fin grid0.N, k0_off1 (grid0.coords t) = ![400 * (t.val % 25), 0])

/-- The input windows are never at rest. -/
theorem liveIn_0 : ∀ t : Fin cfg0.N, cfg0.idle 0 (grid0.coords t) = false := by decide +kernel
theorem liveIn_1 : ∀ t : Fin cfg0.N, cfg0.idle 1 (grid0.coords t) = false := by decide +kernel
theorem liveIn_2 : ∀ t : Fin cfg0.N, cfg0.idle 2 (grid0.coords t) = false := by decide +kernel
theorem liveIn_3 : ∀ t : Fin cfg0.N, cfg0.idle 3 (grid0.coords t) = false := by decide +kernel
theorem liveIn_4 : ∀ t : Fin cfg0.N, cfg0.idle 4 (grid0.coords t) = false := by decide +kernel
theorem liveIn_5 : ∀ t : Fin cfg0.N, cfg0.idle 5 (grid0.coords t) = false := by decide +kernel
/-- In the first phase the output window is at rest and is not written back; -/
theorem outRests : ∀ t : Fin cfg0.N, t.val < 25 → cfg0.idle 6 (grid0.coords t) = true ∧ (cfg0.win 6).flush t = false :=
  (by decide +kernel : ∀ t : Fin grid0.N, t.val < 25 → cfg0.idle 6 (grid0.coords t) = true ∧ win0_6.flush t = false)
/-- in the second it is stored into and written back at every point. -/
theorem outMoves : ∀ t : Fin cfg0.N, 25 ≤ t.val → cfg0.idle 6 (grid0.coords t) = false ∧ (cfg0.win 6).flush t = true :=
  (by decide +kernel : ∀ t : Fin grid0.N, 25 ≤ t.val → cfg0.idle 6 (grid0.coords t) = false ∧ win0_6.flush t = true)

/-! ## The buffers the body is called on -/

abbrev ms0 (t : Fin cfg0.N) : Memref sig .tc .vmem S400x10000 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S10000x128 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S128x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x128 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S128x128 .f32 := win0_4.stage (cfg0.slots t 4)
abbrev hs4 (t : Fin cfg0.N) : (ms4 t).IsWhole := Facts₀.hstage0_4 ((cfg0.slots t 4).cast Facts₀.nbuf0_4)
abbrev ms5 (t : Fin cfg0.N) : Memref sig .tc .vmem S1x128 .f32 := win0_5.stage (cfg0.slots t 5)
abbrev hs5 (t : Fin cfg0.N) : (ms5 t).IsWhole := Facts₀.hstage0_5 ((cfg0.slots t 5).cast Facts₀.nbuf0_5)
abbrev ms6 (t : Fin cfg0.N) : Memref sig .tc .vmem S400x128 .f32 := win0_6.stage (cfg0.slots t 6)
abbrev hs6 (t : Fin cfg0.N) : (ms6 t).IsWhole := Facts₀.hstage0_6 ((cfg0.slots t 6).cast Facts₀.nbuf0_6)
/-- The scratch that keeps the hidden layer. -/
abbrev scM : Memref sig .tc .vmem S10000x128 .f32 := Memref.whole cc0_scratch0

/-- What the region hands its body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The hidden layer, block by block and whole -/

/-- The block of the hidden layer a point computes from its windows' blocks. -/
def hidBlk (c : Dev nD) (t : Fin cfg0.N) : FVec F S400x128 .f32 :=
  k0_pay1 (iblk m c 0 t) (iblk m c 1 t) (iblk m c 2 t) (iblk m c 3 t)

/-- Before point `n` the scratch `d` holds, in the rows of every first-phase point before `n`, that point's block. -/
def Filled (c : Dev nD) (n : ℕ) (d : Vec F S10000x128 .f32) : Prop :=
  ∀ (t : Fin cfg0.N) (h : condA (grid0.coords t)), t.val < n →
    ∀ x, d ((rowsRect (grid0.coords t) h).emb x) = hidBlk m c t x

/-- The point whose rows hold row `r`. -/
def rowPoint (y : S10000x128.Idx) : Fin cfg0.N :=
  ⟨(y 0).val / 400, by have h : (y 0).val < 10000 := (y 0).isLt; have : cfg0.N = 50 := N_0; omega⟩

theorem rowPoint_val (y : S10000x128.Idx) : (rowPoint y).val = (y 0).val / 400 := rfl

/-- The whole hidden layer: row `r` is row `r % 400` of the block of point `r / 400`. -/
def hidAll (c : Dev nD) : Vec F S10000x128 .f32 := fun y =>
  hidBlk m c (rowPoint y) (ix2 ⟨(y 0).val % 400, Nat.mod_lt _ (by norm_num)⟩ (y 1))

/-- A coordinate of a unit-stride rectangle's point is the offset plus the coordinate inside. -/
theorem emb_unit_val {s : Shape} (off size : Fin s.rank → Nat) (inb : ∀ a, off a + size a ≤ s.size a)
    (x : (Rect.unit off size inb).shape.Idx) (a : Fin s.rank) :
    (((Rect.unit off size inb).emb x) a : ℕ) = off a + 1 * (x a : ℕ) := rfl

/-- Every entry of the hidden layer lies in the rows of the point `row / 400`, at row `row % 400` of them. -/
theorem row_cover (y : S10000x128.Idx) :
    ∃ (h : condA (grid0.coords (rowPoint y))),
      (rowsRect (grid0.coords (rowPoint y)) h).emb
        (ix2 ⟨(y 0).val % 400, Nat.mod_lt _ (by norm_num)⟩ (y 1)) = y := by
  have hlt : (y 0).val < 10000 := (y 0).isLt
  have h : condA (grid0.coords (rowPoint y)) :=
    (condA_iff _).mpr (show (y 0).val / 400 < 25 by omega)
  refine ⟨h, ?_⟩
  have e := rowsOff (rowPoint y)
  funext a
  apply Fin.ext
  match a with
  | ⟨0, _⟩ =>
    have e0 : k0_off1 (grid0.coords (rowPoint y)) 0 = 400 * ((y 0).val / 400 % 25) := congrFun e 0
    show k0_off1 (grid0.coords (rowPoint y)) 0 + 1 * ((y 0).val % 400) = (y 0).val
    rw [e0]; omega
  | ⟨1, _⟩ =>
    have e1 : k0_off1 (grid0.coords (rowPoint y)) 1 = 0 := congrFun e 1
    show k0_off1 (grid0.coords (rowPoint y)) 1 + 1 * (y 1).val = (y 1).val
    rw [e1]; omega

/-- A first-phase point's rows lie apart from an earlier first-phase point's rows. -/
theorem rows_apart (t t' : Fin cfg0.N) (h : condA (grid0.coords t)) (h' : condA (grid0.coords t')) (hlt : t'.val < t.val)
    (x : (rowsRect (grid0.coords t') h').shape.Idx) :
    (rowsRect (grid0.coords t') h').emb x ∉ (rowsRect (grid0.coords t) h).set := by
  have ht : t.val < 25 := (condA_iff t).mp h
  have hx : (x 0 : ℕ) < 400 := (x 0).isLt
  rw [Rect.mem_set_unit]
  intro hall
  have ht' : t'.val < 25 := (condA_iff t').mp h'
  have h0 : k0_off1 (grid0.coords t) 0 ≤ k0_off1 (grid0.coords t') 0 + 1 * (x 0 : ℕ) := (hall 0).1
  have et : k0_off1 (grid0.coords t) 0 = 400 * (t.val % 25) := congrFun (rowsOff t) 0
  have et' : k0_off1 (grid0.coords t') 0 = 400 * (t'.val % 25) := congrFun (rowsOff t') 0
  rw [et, et'] at h0
  omega

/-- A first-phase point fills its own rows and keeps the earlier points' rows. -/
theorem filled_step (c : Dev nD) (t : Fin cfg0.N) (ht : condA (grid0.coords t)) (d d' : Vec F S10000x128 .f32)
    (hd : Filled m c t.val d)
    (h1 : ∀ x, d' ((rowsRect (grid0.coords t) ht).emb x) = k0_pay1 (iblk m c 0 t) (iblk m c 1 t) (iblk m c 2 t) (iblk m c 3 t) x)
    (h2 : ∀ y, y ∉ (rowsRect (grid0.coords t) ht).set → d' y = d y) : Filled m c (t.val + 1) d' := by
  intro t' h' hlt x
  by_cases e : t' = t
  · subst e; exact h1 x
  · have hlt' : t'.val < t.val := by
      have : t'.val ≠ t.val := fun hv => e (Fin.ext hv)
      omega
    rw [h2 _ (rows_apart t t' ht h' hlt' x)]
    exact hd t' h' hlt' x

/-- A second-phase point leaves the scratch as filled as it was. -/
theorem filled_keep (c : Dev nD) (t : Fin cfg0.N) (ht : 25 ≤ t.val) (d : Vec F S10000x128 .f32)
    (hd : Filled m c t.val d) : Filled m c (t.val + 1) d := by
  intro t' h' _ x
  exact hd t' h' (by have := (condA_iff t').mp h'; omega) x

/-- Once every first-phase point has run, the scratch is the whole hidden layer. -/
theorem filled_full (c : Dev nD) (n : ℕ) (d : Vec F S10000x128 .f32) (hd : Filled m c n d) (hn : 25 ≤ n) :
    d = hidAll m c := by
  funext y
  obtain ⟨h, e⟩ := row_cover y
  have hlt : (y 0).val < 10000 := (y 0).isLt
  have := hd (rowPoint y) h (show (y 0).val / 400 < n by omega)
    (ix2 ⟨(y 0).val % 400, Nat.mod_lt _ (by norm_num)⟩ (y 1))
  rw [e] at this
  exact this

/-! ## The proof data -/

/-- What a second-phase point leaves in the output window: the second layer of its block of the adjacency over the
    whole hidden layer. -/
def outBlk (c : Dev nD) (t : Fin cfg0.N) : FVec F S400x128 .f32 :=
  k0_pay2 (iblk m c 0 t) (hidAll m c) (iblk m c 4 t) (iblk m c 5 t)

/-- The invariant before point `n`: the scratch filled up to `n`, and the generator register. -/
def Inv (c : Dev nD) (n : ℕ) : sProp 𝕄 :=
  iprop(iprop(∃ d, ⌜Filled m c n d⌝ ∗ owns (c : Thread nD τ) scM fullShare d) ∗ (∃ r, prngReg c r))

/-- The proof data of the one pipeline on core `c`: the arrays as the region finds them; after the body each input
    window at its block, the output window at `outBlk` (read only at second-phase points); the invariant `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk m c t := by dsimp only [dats]

/-- Each input window's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point: a first-phase point by `runA` (its rows added to the filled scratch, the output window
    handed back as found), a second-phase point by `runB` (the scratch, by then the whole hidden layer, kept; the output
    window at `outBlk`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rewrite [show (dats m 0 c).owesAt () t.succ = (dats m 0 c).owesAt () t.castSucc from rfl]
  rewrite [show (dats m 0 c).Φ t.succ = Inv m c (t.val + 1) from rfl, show (dats m 0 c).Φ t.castSucc = Inv m c t.val from rfl]
  rewrite [show (dats m 0 c).leavesExact 0 t = owns (c : Thread nD τ) (ms0 t) fullShare ((dats m 0 c).after 0 t) from by
    unfold Dat.leavesExact; rw [liveIn_0 t], after_0]
  rewrite [show (dats m 0 c).leavesExact 1 t = owns (c : Thread nD τ) (ms1 t) fullShare ((dats m 0 c).after 1 t) from by
    unfold Dat.leavesExact; rw [liveIn_1 t], after_1]
  rewrite [show (dats m 0 c).leavesExact 2 t = owns (c : Thread nD τ) (ms2 t) fullShare ((dats m 0 c).after 2 t) from by
    unfold Dat.leavesExact; rw [liveIn_2 t], after_2]
  rewrite [show (dats m 0 c).leavesExact 3 t = owns (c : Thread nD τ) (ms3 t) fullShare ((dats m 0 c).after 3 t) from by
    unfold Dat.leavesExact; rw [liveIn_3 t], after_3]
  rewrite [show (dats m 0 c).leavesExact 4 t = owns (c : Thread nD τ) (ms4 t) fullShare ((dats m 0 c).after 4 t) from by
    unfold Dat.leavesExact; rw [liveIn_4 t], after_4]
  rewrite [show (dats m 0 c).leavesExact 5 t = owns (c : Thread nD τ) (ms5 t) fullShare ((dats m 0 c).after 5 t) from by
    unfold Dat.leavesExact; rw [liveIn_5 t], after_5]
  have hN : t.val < 50 := lt_of_lt_of_eq t.isLt (show cfg0.N = 50 from N_0)
  unfold Inv
  by_cases h0 : t.val < 25
  · rewrite [Dat.leavesExact_idle (dats m 0 c) 6 t (outRests t h0).1 (outRests t h0).2]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ ((condA_iff t).mpr h0) (fun h => absurd ((condB_iff t).mp h) (by omega)) (iblk m c 0 t) (iblk m c 1 t) (iblk m c 2 t) (iblk m c 3 t) (iblk m c 4 t) (iblk m c 5 t) _ d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%d', %hd', HS⟩⟩
    isplitl [HS Hg]
    · isplitl [HS]
      · iexists d'; isplitr
        · ipureintro; exact filled_step m c t ((condA_iff t).mpr h0) d d' hd hd'.1 hd'.2
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 25 ≤ t.val := by omega
    rewrite [show (dats m 0 c).leavesExact 6 t = owns (c : Thread nD τ) (ms6 t) fullShare ((dats m 0 c).after 6 t) from by
      unfold Dat.leavesExact; rw [(outMoves t h1).1], after_6]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    obtain rfl := filled_full m c t.val d hd h1
    iapply ((runB c (grid0.coords t) _ _ _ _ _ _ _ _ _ _ _ _ _ _ _ _ (fun h => absurd ((condA_iff t).mp h) h0) ((condB_iff t).mpr h1) (iblk m c 0 t) (iblk m c 1 t) (iblk m c 2 t) (iblk m c 3 t) (iblk m c 4 t) (iblk m c 5 t) _ (hidAll m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists (hidAll m c); isplitr
        · ipureintro; exact filled_keep m c t h1 _ hd
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is filled yet. -/
theorem hin (c : Dev nD) : Pipeline.ΦA spec0 c ⊢ (dats m 0 c).Φ 0 := by
  rewrite [show (dats m 0 c).Φ 0 = Inv m c 0 from rfl, PhiA_eq]
  unfold Inv
  iintro ⟨⟨%d, HS⟩, Hg⟩
  isplitl [HS]
  · iexists d; isplitr
    · ipureintro; intro t _ hlt; exact absurd hlt (Nat.not_lt_zero _)
    iexact HS
  iexact Hg

/-- After the last point the invariant gives the scratch back at some contents. -/
theorem hout (c : Dev nD) : (dats m 0 c).Φ (Fin.last cfg0.N) ⊢ Pipeline.ΦA spec0 c := by
  rewrite [show (dats m 0 c).Φ (Fin.last cfg0.N) = Inv m c cfg0.N from rfl, PhiA_eq]
  unfold Inv
  iintro ⟨⟨%d, -, HS⟩, Hg⟩
  isplitl [HS]
  · iexists d; iexact HS
  iexact Hg

/-! ## The run and the frame -/

set_option backward.isDefEq.respectTransparency.types false in
/-- Every weakly fair execution of the program terminates, the windows' arrays at what the write-backs of the proof data
    leave and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Schedule

end
-- ==== Proof.Layers.lean ====
/-
  A two-layer graph convolution as plain sums over the extended reals.

  One layer takes node features `h` (nodes × features), mixes them along the graph by the matrix `a`
  (nodes × nodes), maps the features by `w` (features × features) and adds a bias `b` per feature.  The
  triple product `a · h · w` may be bracketed either way: `(a · h) · w` (`layerL`) or `a · (h · w)`
  (`layerR`).  The network is a layer, a clamp at zero from below, and a second layer; `netL` and `netR`
  are the network with both layers in the one bracketing or the other, over arrays of the literal shapes.
-/
import Idealize.ShloMosaic.PureOps.Ideal
import Idealize.ShloMosaic.Lib.ValueIdx

noncomputable section

namespace Cert.Layers

open Idealize.ShloMosaic Idealize.ShloMosaic.ValueIdx

/-- An extended real that is a real number (neither infinity). -/
def IsReal (x : EReal) : Prop := ∃ r : ℝ, x = (r : EReal)

section Abstract

variable {ι κ : Type} [Fintype ι] [Fintype κ]

/-- One layer, mixing first: entry (r, k) of `(a · h) · w + b`. -/
def layerL (a : ι → ι → EReal) (h : ι → κ → EReal) (w : κ → κ → EReal) (b : κ → EReal) (r : ι) (k : κ) : EReal :=
  (∑ j : κ, (∑ n : ι, a r n * h n j) * w j k) + b k

/-- One layer, mapping the features first: entry (r, k) of `a · (h · w) + b`. -/
def layerR (a : ι → ι → EReal) (h : ι → κ → EReal) (w : κ → κ → EReal) (b : κ → EReal) (r : ι) (k : κ) : EReal :=
  (∑ n : ι, a r n * (∑ j : κ, h n j * w j k)) + b k

/-- The clamp at zero from below, entry by entry. -/
def clamp0 (h : ι → κ → EReal) (n : ι) (j : κ) : EReal := max (h n j) 0

end Abstract

/-- A rank-2 array read as a matrix. -/
def toMat {A B : Nat} (X : (⟨2, ![A, B]⟩ : Shape).Idx → EReal) : Fin A → Fin B → EReal := fun i j => X (ix2 i j)

/-- A rank-1 array read as a vector. -/
def toVec {A : Nat} (X : (⟨1, ![A]⟩ : Shape).Idx → EReal) : Fin A → EReal := fun i => X (ix1 i)

/-- A matrix as a rank-2 array. -/
def ofMat {A B : Nat} (f : Fin A → Fin B → EReal) : (⟨2, ![A, B]⟩ : Shape).Idx → EReal := fun i => f (i 0) (i 1)

theorem ofMat_ix2 {A B : Nat} (f : Fin A → Fin B → EReal) (i : Fin A) (j : Fin B) : ofMat f (ix2 i j) = f i j := rfl

/-- The network with both layers mixing first. -/
def netL (x : (⟨2, ![10000, 128]⟩ : Shape).Idx → EReal) (adj : (⟨2, ![10000, 10000]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) :
    (⟨2, ![10000, 128]⟩ : Shape).Idx → EReal :=
  ofMat (layerL (toMat adj) (clamp0 (layerL (toMat adj) (toMat x) (toMat w1) (toVec b1))) (toMat w2) (toVec b2))

/-- The network with both layers mapping the features first. -/
def netR (x : (⟨2, ![10000, 128]⟩ : Shape).Idx → EReal) (adj : (⟨2, ![10000, 10000]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) :
    (⟨2, ![10000, 128]⟩ : Shape).Idx → EReal :=
  ofMat (layerR (toMat adj) (clamp0 (layerR (toMat adj) (toMat x) (toMat w1) (toVec b1))) (toMat w2) (toVec b2))

end Cert.Layers

end
-- ==== Proof.PayloadReading.lean ====
/-
  What the kernel's body stores, read entry by entry at the extended reals.

  The first phase stores, for its block of 400 rows of the adjacency, `max ((adj_blk · x) · w1 + b1, 0)`; the second
  phase stores `(adj_blk · h) · w2 + b2` for the hidden layer `h` it finds in the scratch.  Both products into a zero
  accumulator are plain sums over the contracted axis; the bias row is broadcast down the rows.
-/
import proofs.«151624_g39788577030959_cont_8to1_b_55_6_alg».proof.Proof.Layers
import proofs.«151624_g39788577030959_cont_8to1_b_55_6_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.PayloadReading

open Idealize.ShloMosaic Idealize.ShloMosaic.ValueIdx Cert.KernelIdeal Cert.KernelIdeal.Gen

/-! ## The two products' operand indices, axis by axis

For the dimension numbers `[1] × [0]` the left operand is read at (row of the result, contracted coordinate) and
the right operand at (contracted coordinate, column of the result). -/

theorem lhs_mm1_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_mm1_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_mm1_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_mm1_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem lhs_mm2_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_mm2_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_mm2_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_mm2_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-! ## Each product into a zero accumulator is a plain sum over the contracted axis -/

/-- Entry (p, q) of the 400 × 10000 block times the 10000 × 128 array, added to zero. -/
theorem mm1_apply (a : FVec Ideal S400x10000 .f32) (b : FVec Ideal S10000x128 .f32) (p : Fin 400) (q : Fin 128) :
    matmul (F := Ideal) dot_S400x10000_S10000x128_S400x128_1_0_0_1_n_n none a b (constant (F := Ideal) S400x128 .f32 0x00000000#32) (ix2 p q)
      = ∑ k : Fin 10000, a (ix2 p k) * b (ix2 k q) := by
  show FloatOps.matmul dot_S400x10000_S10000x128_S400x128_1_0_0_1_n_n none a b (constant (F := Ideal) S400x128 .f32 0x00000000#32) (ix2 p q) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_mm1_0 _ _
    | ⟨1, _⟩ => exact (lhs_mm1_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_mm1_0 _ _).trans hk
    | ⟨1, _⟩ => exact rhs_mm1_1 _ _)
  rw [el, er]

/-- Entry (p, q) of a 400 × 128 array times the 128 × 128 weight, added to zero. -/
theorem mm2_apply (a : FVec Ideal S400x128 .f32) (b : FVec Ideal S128x128 .f32) (p : Fin 400) (q : Fin 128) :
    matmul (F := Ideal) dot_S400x128_S128x128_S400x128_1_0_0_1_n_n none a b (constant (F := Ideal) S400x128 .f32 0x00000000#32) (ix2 p q)
      = ∑ k : Fin 128, a (ix2 p k) * b (ix2 k q) := by
  show FloatOps.matmul dot_S400x128_S128x128_S400x128_1_0_0_1_n_n none a b (constant (F := Ideal) S400x128 .f32 0x00000000#32) (ix2 p q) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

/-- Entry (p, q) of `(a · x) · w + b`, the bias row `b` broadcast down the 400 rows: what both phases compute before
    the first one clamps it. -/
theorem affine_apply (v6 : FVec Ideal S400x10000 .f32) (v7 : FVec Ideal S10000x128 .f32) (v9 : FVec Ideal S128x128 .f32)
    (v11 : FVec Ideal S1x128 .f32) (p : Fin 400) (q : Fin 128) :
    addf (matmul (F := Ideal) dot_S400x128_S128x128_S400x128_1_0_0_1_n_n none
          (matmul (F := Ideal) dot_S400x10000_S10000x128_S400x128_1_0_0_1_n_n none v6 v7 (constant (F := Ideal) S400x128 .f32 0x00000000#32))
          v9 (constant (F := Ideal) S400x128 .f32 0x00000000#32))
        (broadcastTo S400x128 (shapeCast S1x128 v11 shapeCasts_S1x128_S1x128) broadcasts_S1x128_S400x128) (ix2 p q)
      = (∑ j : Fin 128, (∑ n : Fin 10000, v6 (ix2 p n) * v7 (ix2 n j)) * v9 (ix2 j q)) + v11 (ix2 (0 : Fin 1) q) := by
  rw [addf_apply, mm2_apply, shapeCast_self, broadcastTo_1b_ab_apply]
  congr 1
  exact Finset.sum_congr rfl fun j _ => by rw [mm1_apply]

/-- Entry (p, q) of the block the first phase stores into the hidden layer. -/
theorem firstPhase_apply (v6 : Vec Ideal S400x10000 .f32) (v7 : Vec Ideal S10000x128 .f32) (v9 : Vec Ideal S128x128 .f32)
    (v11 : Vec Ideal S1x128 .f32) (p : Fin 400) (q : Fin 128) :
    k0_pay1 (F := Ideal) v6 v7 v9 v11 (ix2 p q)
      = max ((∑ j : Fin 128, (∑ n : Fin 10000, v6 (ix2 p n) * v7 (ix2 n j)) * v9 (ix2 j q)) + v11 (ix2 (0 : Fin 1) q)) 0 := by
  unfold k0_pay1
  rw [shapeCast_self, maximumf_apply, broadcast_apply, affine_apply]
  show max _ (Ideal.ofBits .f32 0x00000000#32) = _
  rw [Ideal.ofBits_zero_f32]

/-- Entry (p, q) of the block the second phase stores into the output window. -/
theorem secondPhase_apply (v6 : Vec Ideal S400x10000 .f32) (v7 : Vec Ideal S10000x128 .f32) (v9 : Vec Ideal S128x128 .f32)
    (v11 : Vec Ideal S1x128 .f32) (p : Fin 400) (q : Fin 128) :
    k0_pay2 (F := Ideal) v6 v7 v9 v11 (ix2 p q)
      = (∑ j : Fin 128, (∑ n : Fin 10000, v6 (ix2 p n) * v7 (ix2 n j)) * v9 (ix2 j q)) + v11 (ix2 (0 : Fin 1) q) := by
  unfold k0_pay2
  exact affine_apply v6 v7 v9 v11 p q

end Cert.PayloadReading

end
-- ==== Proof.IdealValue.lean ====
/-
  What the kernel leaves in its result array, at the extended reals: the network with both layers mixing first.

  A first-phase point t reads rows 400·(t % 25) … of the adjacency, so its block of the hidden layer is rows
  400·t … 400·t + 399 of `clamp0 (layerL adj x w1 b1)`; together the 25 blocks are the whole hidden layer.  A
  second-phase point t reads the same rows of the adjacency (t % 25 again) and writes back rows 400·(t - 25) … of the
  result, which are therefore those rows of `layerL adj hidden w2 b2`.  The 25 written blocks tile the result array.
  The two bias rows reach the kernel as 1 × 128 reshapes of the bias vectors.
-/
import proofs.«151624_g39788577030959_cont_8to1_b_55_6_alg».proof.Proof.IdealSchedule
import proofs.«151624_g39788577030959_cont_8to1_b_55_6_alg».proof.Proof.PayloadReading
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Phases Cert.KernelIdeal.Schedule Cert.Layers Cert.PayloadReading

variable (m : (ℓ : Loc nD τ sig) → Buf (Elt Ideal) ℓ) (ρ : Dev nD → PrngReg)

/-- The six argument arrays on core `c`. -/
abbrev xArr (c : Dev nD) : S10000x128.Idx → EReal := m ((c : Thread nD τ).loc main_arg0)
abbrev adjArr (c : Dev nD) : S10000x10000.Idx → EReal := m ((c : Thread nD τ).loc main_arg1)
abbrev w1Arr (c : Dev nD) : S128x128.Idx → EReal := m ((c : Thread nD τ).loc main_arg2)
abbrev b1Arr (c : Dev nD) : S128.Idx → EReal := m ((c : Thread nD τ).loc main_arg3)
abbrev w2Arr (c : Dev nD) : S128x128.Idx → EReal := m ((c : Thread nD τ).loc main_arg4)
abbrev b2Arr (c : Dev nD) : S128.Idx → EReal := m ((c : Thread nD τ).loc main_arg5)

/-- The network's result of the six arrays. -/
abbrev result (c : Dev nD) : S10000x128.Idx → EReal :=
  netL (xArr m c) (adjArr m c) (w1Arr m c) (b1Arr m c) (w2Arr m c) (b2Arr m c)

/-! ## Which block of its array each window holds at a point -/

theorem idx_facts : ∀ t : Fin cfg0.N,
    win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (t.val % 25) * (t.val / 25) ∧ win0_6.index t (1 : Fin 2) = 0 :=
  (by decide +kernel : ∀ t : Fin grid0.N, _)

/-- The adjacency window at point `t` holds rows 400·(t % 25) … of the adjacency. -/
theorem adj_read (c : Dev nD) (t : Fin cfg0.N) (p : Fin 400) (n : Fin 10000) :
    (iblk m c 0 t : S400x10000.Idx → EReal) (ix2 p n)
      = adjArr m c (ix2 ⟨400 * (t.val % 25) + p.val, by have := p.isLt; omega⟩ n) := by
  obtain ⟨e0, e1, -⟩ := idx_facts t
  show V m c main_arg1 (((cfg0.win 0).blk t).view.emb (ix2 p n)) = _
  rw [V_main_arg1]
  refine congrArg _ ?_
  funext a; apply Fin.ext
  match a with
  | ⟨0, _⟩ => show win0_0.index t (0 : Fin 2) * 400 + 1 * p.val = 400 * (t.val % 25) + p.val; rw [e0]; omega
  | ⟨1, _⟩ => show win0_0.index t (1 : Fin 2) * 10000 + 1 * n.val = n.val; rw [e1]; omega

/-- The features' window holds the whole features array; -/
theorem x_read (c : Dev nD) (t : Fin cfg0.N) : (iblk m c 1 t : S10000x128.Idx → EReal) = xArr m c := by
  obtain ⟨-, -, e0, e1, -⟩ := idx_facts t
  funext y
  show V m c main_arg0 (((cfg0.win 1).blk t).view.emb y) = _
  rw [V_main_arg0]
  refine congrArg _ ?_
  funext a; apply Fin.ext
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- the first weights' window the whole first weights; -/
theorem w1_read (c : Dev nD) (t : Fin cfg0.N) : (iblk m c 2 t : S128x128.Idx → EReal) = w1Arr m c := by
  obtain ⟨-, -, -, -, e0, e1, -⟩ := idx_facts t
  funext y
  show V m c main_arg2 (((cfg0.win 2).blk t).view.emb y) = _
  rw [V_main_arg2]
  refine congrArg _ ?_
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- the second weights' window the whole second weights. -/
theorem w2_read (c : Dev nD) (t : Fin cfg0.N) : (iblk m c 4 t : S128x128.Idx → EReal) = w2Arr m c := by
  obtain ⟨-, -, -, -, -, -, -, -, e0, e1, -⟩ := idx_facts t
  funext y
  show V m c main_arg4 (((cfg0.win 4).blk t).view.emb y) = _
  rw [V_main_arg4]
  refine congrArg _ ?_
  funext a; apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The two bias rows the region finds are the bias vectors laid out as 1 × 128. -/
theorem biasRows (c : Dev nD) :
    (V m c main_v0 : S1x128.Idx → EReal) = shapeCast S1x128 (b1Arr m c) Facts₀.shapeCasts_S128_S1x128
    ∧ (V m c main_v1 : S1x128.Idx → EReal) = shapeCast S1x128 (b2Arr m c) Facts₀.shapeCasts_S128_S1x128 := by
  constructor
  · dsimp only [V, hostOps0]; after_results; rfl
  · dsimp only [V, hostOps0]; after_results; rfl

/-- The first bias window's row is the first bias vector; -/
theorem b1_read (c : Dev nD) (t : Fin cfg0.N) (q : Fin 128) :
    (iblk m c 3 t : S1x128.Idx → EReal) (ix2 (0 : Fin 1) q) = b1Arr m c (ix1 q) := by
  obtain ⟨-, -, -, -, -, -, e0, e1, -⟩ := idx_facts t
  show V m c main_v0 (((cfg0.win 3).blk t).view.emb (ix2 (0 : Fin 1) q)) = _
  rw [(biasRows m c).1, shapeCast_addUnit_apply]
  refine congrArg _ ?_
  funext a; apply Fin.ext
  match a with
  | ⟨0, _⟩ => show win0_3.index t (1 : Fin 2) * 128 + 1 * q.val = q.val; rw [e1]; omega

/-- the second bias window's row the second bias vector. -/
theorem b2_read (c : Dev nD) (t : Fin cfg0.N) (q : Fin 128) :
    (iblk m c 5 t : S1x128.Idx → EReal) (ix2 (0 : Fin 1) q) = b2Arr m c (ix1 q) := by
  obtain ⟨-, -, -, -, -, -, -, -, -, -, e0, e1, -⟩ := idx_facts t
  show V m c main_v1 (((cfg0.win 5).blk t).view.emb (ix2 (0 : Fin 1) q)) = _
  rw [(biasRows m c).2, shapeCast_addUnit_apply]
  refine congrArg _ ?_
  funext a; apply Fin.ext
  match a with
  | ⟨0, _⟩ => show win0_5.index t (1 : Fin 2) * 128 + 1 * q.val = q.val; rw [e1]; omega

/-! ## The hidden layer and the written blocks, entry by entry -/

/-- Entry (n, j) of the whole hidden layer is the clamped first layer there. -/
theorem hid_apply (c : Dev nD) (n : Fin 10000) (j : Fin 128) :
    hidAll m c (ix2 n j)
      = clamp0 (layerL (toMat (adjArr m c)) (toMat (xArr m c)) (toMat (w1Arr m c)) (toVec (b1Arr m c))) n j := by
  have hn : n.val < 10000 := n.isLt
  show k0_pay1 (F := Ideal) (iblk m c 0 (rowPoint (ix2 n j))) (iblk m c 1 (rowPoint (ix2 n j))) (iblk m c 2 (rowPoint (ix2 n j)))
      (iblk m c 3 (rowPoint (ix2 n j))) (ix2 ⟨n.val % 400, Nat.mod_lt _ (by norm_num)⟩ j) = _
  rw [firstPhase_apply]
  unfold clamp0 layerL toMat toVec
  have hrow : ∀ n' : Fin 10000,
      (iblk m c 0 (rowPoint (ix2 n j)) : S400x10000.Idx → EReal) (ix2 ⟨n.val % 400, Nat.mod_lt _ (by norm_num)⟩ n')
        = adjArr m c (ix2 n n') := by
    intro n'
    rw [adj_read]
    refine congrArg _ (congrArg (fun r => ix2 r n') (Fin.ext ?_))
    show 400 * (n.val / 400 % 25) + n.val % 400 = n.val
    omega
  simp only [hrow, x_read, w1_read, b1_read]

/-- Entry (p, q) of what a second-phase point leaves in the output window is entry (400·(t % 25) + p, q) of the
    second layer over the hidden layer. -/
theorem out_apply (c : Dev nD) (t : Fin cfg0.N) (p : Fin 400) (q : Fin 128) :
    outBlk m c t (ix2 p q)
      = layerL (toMat (adjArr m c))
          (clamp0 (layerL (toMat (adjArr m c)) (toMat (xArr m c)) (toMat (w1Arr m c)) (toVec (b1Arr m c))))
          (toMat (w2Arr m c)) (toVec (b2Arr m c)) ⟨400 * (t.val % 25) + p.val, by have := p.isLt; omega⟩ q := by
  show k0_pay2 (F := Ideal) (iblk m c 0 t) (hidAll m c) (iblk m c 4 t) (iblk m c 5 t) (ix2 p q) = _
  rw [secondPhase_apply]
  simp only [adj_read, w2_read, b2_read, hid_apply]
  rfl

/-! ## From the written blocks to the array -/

/-- An index of the result array is in point `t`'s block iff each coordinate is in the block's range. -/
theorem mem_outBlk (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v2).slice (win0_6.rect t)).set ↔ _
  rw [View.set_slice_whole, Rect.mem_set_unit]
  exact Iff.rfl

/-- What a point that writes back writes is its block of the network's result. -/
theorem flushed_eq (c : Dev nD) (t : Fin cfg0.N) (hf : (cfg0.win 6).flush t = true) :
    (dats m 0 c).flushed 6 t = ((cfg0.win 6).blk t).view.read (Elt Ideal) (result m c) := by
  have hN : t.val < 50 := lt_of_lt_of_eq t.isLt (show cfg0.N = 50 from N_0)
  have h25 : 25 ≤ t.val := by
    by_contra h
    have := (outRests t (by omega)).2
    rw [this] at hf; cases hf
  obtain ⟨-, -, -, -, -, -, -, -, -, -, -, -, e0, e1⟩ := idx_facts t
  have hdiv : t.val / 25 = 1 := by omega
  show (cfg0.win 6).cut (grid0.coords t) ((dats m 0 c).after 6 t) = _
  rw [after_6]
  funext x
  obtain ⟨p, q, rfl⟩ : ∃ (p : Fin 400) (q : Fin 128), x = ix2 p q := ⟨x 0, x 1, eq_ix2 x⟩
  show outBlk m c t (ix2 p q) = result m c (((cfg0.win 6).blk t).view.emb (ix2 p q))
  have hemb : ((cfg0.win 6).blk t).view.emb (ix2 p q) = ix2 ⟨400 * (t.val % 25) + p.val, by have := p.isLt; omega⟩ q := by
    funext a; apply Fin.ext
    match a with
    | ⟨0, _⟩ => show win0_6.index t (0 : Fin 2) * 400 + 1 * p.val = 400 * (t.val % 25) + p.val; rw [e0, hdiv]; omega
    | ⟨1, _⟩ => show win0_6.index t (1 : Fin 2) * 128 + 1 * q.val = q.val; rw [e1]; omega
  rw [hemb, out_apply]
  rfl

/-- Every entry of the result array is in the block of some point that writes back. -/
theorem out_cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 50 := N_0
  let t : Fin cfg0.N := ⟨25 + (i 0).val / 400, by omega⟩
  have ht : t.val = 25 + (i 0).val / 400 := rfl
  obtain ⟨-, -, -, -, -, -, -, -, -, -, -, -, e0, e1⟩ := idx_facts t
  have hdiv : t.val / 25 = 1 := by omega
  refine ⟨t, (outMoves t (by omega)).2, ?_⟩
  rw [mem_outBlk]
  intro a
  match a with
  | ⟨0, _⟩ =>
    show win0_6.index t (0 : Fin 2) * 400 ≤ (i 0).val ∧ (i 0).val < win0_6.index t (0 : Fin 2) * 400 + 400
    rw [e0, hdiv]; omega
  | ⟨1, _⟩ =>
    show win0_6.index t (1 : Fin 2) * 128 ≤ (i 1).val ∧ (i 1).val < win0_6.index t (1 : Fin 2) * 128 + 128
    rw [e1]; omega

/-- The result array after the run is the network's result of the argument arrays. -/
theorem final (c : Dev nD) : (dats m 0 c).arrAt 6 cfg0.N = result m c :=
  (dats m 0 c).arrAt_eq_of_cover 6 (result m c) (fun t hf => flushed_eq m c t hf) out_cover

/-! ## The run, read -/

/-- Every weakly fair execution of the idealized kernel's program terminates with the result array at the network's result
    of the argument arrays and the argument arrays unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main (F := Ideal) m ρ)

end Cert.KernelIdeal.Final

end
-- ==== Proof.RealLaw.lean ====
/-
  The law that joins the two bracketings of a graph-convolution layer, and of the two-layer network.

  Over the real numbers `(a · h) · w = a · (h · w)`: both are the double sum of `a r n * h n j * w j k`, in the
  two orders of summation.  On the extended reals the step through distributivity needs every entry to be a
  real number; the bias is added last on both sides and may be anything in the second layer.  The first layer's
  result, clamped at zero, is again real when its bias is, which is what the second layer's law asks of it.
-/
import proofs.«151624_g39788577030959_cont_8to1_b_55_6_alg».proof.Proof.Layers

noncomputable section

namespace Cert.RealLaw

open Cert.Layers

variable {ι κ : Type} [Fintype ι] [Fintype κ]

/-- The coercion of the reals into the extended reals goes through a finite sum. -/
private theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One layer: the two bracketings agree when `a`, `h` and `w` hold real numbers (any bias). -/
theorem layer_eq (a : ι → ι → EReal) (h : ι → κ → EReal) (w : κ → κ → EReal) (b : κ → EReal)
    (ha : ∀ r n, IsReal (a r n)) (hh : ∀ n j, IsReal (h n j)) (hw : ∀ j k, IsReal (w j k)) :
    layerL a h w b = layerR a h w b := by
  -- name the real numbers behind the entries
  choose A hA using ha
  choose H hH using hh
  choose W hW using hw
  funext r k
  unfold layerL layerR
  -- the bias is the same summand on both sides
  congr 1
  -- both sides are the coercion of a real double sum
  simp only [hA, hH, hW, ← EReal.coe_mul, ← coe_sum]
  congr 1
  -- in ℝ: distribute, exchange the two sums, reassociate
  simp only [Finset.sum_mul, Finset.mul_sum]
  rw [Finset.sum_comm]
  simp only [mul_assoc]

/-- One layer of real entries and a real bias has real entries. -/
theorem layerL_real (a : ι → ι → EReal) (h : ι → κ → EReal) (w : κ → κ → EReal) (b : κ → EReal)
    (ha : ∀ r n, IsReal (a r n)) (hh : ∀ n j, IsReal (h n j)) (hw : ∀ j k, IsReal (w j k)) (hb : ∀ k, IsReal (b k)) :
    ∀ r k, IsReal (layerL a h w b r k) := by
  choose A hA using ha
  choose H hH using hh
  choose W hW using hw
  choose B hB using hb
  intro r k
  -- the same expression, computed in ℝ
  refine ⟨(∑ j : κ, (∑ n : ι, A r n * H n j) * W j k) + B k, ?_⟩
  unfold layerL
  simp only [hA, hH, hW, hB, EReal.coe_add, EReal.coe_mul, coe_sum]

/-- The clamp at zero keeps real entries real. -/
theorem clamp0_real (h : ι → κ → EReal) (hh : ∀ n j, IsReal (h n j)) : ∀ n j, IsReal (clamp0 h n j) := by
  intro n j
  obtain ⟨r, hr⟩ := hh n j
  -- max (↑r) 0 = ↑(max r 0)
  refine ⟨max r 0, ?_⟩
  unfold clamp0
  rw [hr, ← EReal.coe_zero]
  exact (EReal.coe_strictMono.monotone.map_max).symm

/-- The network: both bracketings agree on arrays of real numbers (the last bias may be anything). -/
theorem net_eq (x : (⟨2, ![10000, 128]⟩ : Idealize.ShloMosaic.Shape).Idx → EReal) (adj : (⟨2, ![10000, 10000]⟩ : Idealize.ShloMosaic.Shape).Idx → EReal)
    (w1 : (⟨2, ![128, 128]⟩ : Idealize.ShloMosaic.Shape).Idx → EReal) (b1 : (⟨1, ![128]⟩ : Idealize.ShloMosaic.Shape).Idx → EReal)
    (w2 : (⟨2, ![128, 128]⟩ : Idealize.ShloMosaic.Shape).Idx → EReal) (b2 : (⟨1, ![128]⟩ : Idealize.ShloMosaic.Shape).Idx → EReal)
    (hx : ∀ i, IsReal (x i)) (hadj : ∀ i, IsReal (adj i)) (hw1 : ∀ i, IsReal (w1 i)) (hb1 : ∀ i, IsReal (b1 i))
    (hw2 : ∀ i, IsReal (w2 i)) :
    netL x adj w1 b1 w2 b2 = netR x adj w1 b1 w2 b2 := by
  -- the matrices and vectors read off real arrays hold real numbers
  have hA : ∀ r n, IsReal (toMat adj r n) := fun r n => hadj _
  have hX : ∀ n j, IsReal (toMat x n j) := fun n j => hx _
  have hW1 : ∀ j k, IsReal (toMat w1 j k) := fun j k => hw1 _
  have hB1 : ∀ k, IsReal (toVec b1 k) := fun k => hb1 _
  have hW2 : ∀ j k, IsReal (toMat w2 j k) := fun j k => hw2 _
  unfold netL netR
  -- first layer: the law; second layer: the law again, its middle operand real by the two lemmas above
  rw [← layer_eq (toMat adj) (toMat x) (toMat w1) (toVec b1) hA hX hW1,
    layer_eq (toMat adj) _ (toMat w2) (toVec b2) hA
      (clamp0_real _ (layerL_real _ _ _ _ hA hX hW1 hB1)) hW2]

end Cert.RealLaw

end
-- ==== Proof.RefReading.lean ====
/-
  The reference program's result, read entry by entry, is the network with each layer mapping the features
  first: `adj · (h · w) + b`, the first layer clamped at zero from below.
-/
import proofs.«151624_g39788577030959_cont_8to1_b_55_6_alg».proof.Proof.Layers
import proofs.«151624_g39788577030959_cont_8to1_b_55_6_alg».proof.Proof.Gen.ReferenceIdeal.Read

noncomputable section

namespace Cert.RefReading

open Idealize.ShloMosaic Idealize.ShloMosaic.ValueIdx Cert.ReferenceIdeal Cert.ReferenceIdeal.Gen Cert.Layers

/-! The index maps of the four products and the two bias broadcasts, at an entry given by its coordinates:
    a product's left factor is read at (row, summation index), its right factor at (summation index, column);
    a bias is read at the column. -/

private theorem lidx7 (a : Fin 10000) (b : Fin 128) (n : Fin 10000) : Read.lidx_main_v7 (ix2 a b) n = ix2 a n :=
  funext fun d => Fin.ext (by match d with | ⟨0, _⟩ => rfl | ⟨1, _⟩ => rfl)
private theorem ridx7 (a : Fin 10000) (b : Fin 128) (n : Fin 10000) : Read.ridx_main_v7 (ix2 a b) n = ix2 n b :=
  funext fun d => Fin.ext (by match d with | ⟨0, _⟩ => rfl | ⟨1, _⟩ => rfl)
private theorem lidx6 (a : Fin 10000) (b : Fin 128) (j : Fin 128) : Read.lidx_main_v6 (ix2 a b) j = ix2 a j :=
  funext fun d => Fin.ext (by match d with | ⟨0, _⟩ => rfl | ⟨1, _⟩ => rfl)
private theorem ridx6 (a : Fin 10000) (b : Fin 128) (j : Fin 128) : Read.ridx_main_v6 (ix2 a b) j = ix2 j b :=
  funext fun d => Fin.ext (by match d with | ⟨0, _⟩ => rfl | ⟨1, _⟩ => rfl)
private theorem lidx1 (a : Fin 10000) (b : Fin 128) (n : Fin 10000) : Read.lidx_main_v1 (ix2 a b) n = ix2 a n :=
  funext fun d => Fin.ext (by match d with | ⟨0, _⟩ => rfl | ⟨1, _⟩ => rfl)
private theorem ridx1 (a : Fin 10000) (b : Fin 128) (n : Fin 10000) : Read.ridx_main_v1 (ix2 a b) n = ix2 n b :=
  funext fun d => Fin.ext (by match d with | ⟨0, _⟩ => rfl | ⟨1, _⟩ => rfl)
private theorem lidx0 (a : Fin 10000) (b : Fin 128) (j : Fin 128) : Read.lidx_main_v0 (ix2 a b) j = ix2 a j :=
  funext fun d => Fin.ext (by match d with | ⟨0, _⟩ => rfl | ⟨1, _⟩ => rfl)
private theorem ridx0 (a : Fin 10000) (b : Fin 128) (j : Fin 128) : Read.ridx_main_v0 (ix2 a b) j = ix2 j b :=
  funext fun d => Fin.ext (by match d with | ⟨0, _⟩ => rfl | ⟨1, _⟩ => rfl)
private theorem bidx1 (a : Fin 10000) (b : Fin 128) : Read.idx_main_v2 (Read.idx_main_v3 (ix2 a b)) = ix1 b :=
  funext fun d => Fin.ext (by match d with | ⟨0, _⟩ => rfl)
private theorem bidx2 (a : Fin 10000) (b : Fin 128) : Read.idx_main_v8 (Read.idx_main_v9 (ix2 a b)) = ix1 b :=
  funext fun d => Fin.ext (by match d with | ⟨0, _⟩ => rfl)

/-- The composed term of the reference's thirteen host operations is `netR` of its six arguments. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    Cert.ReferenceIdeal.Read.val_main_v10 (F := Ideal) x0 x1 x2 x3 x4 x5 = netR x0 x1 x2 x3 x4 x5 := by
  funext i
  obtain ⟨r, k, rfl⟩ : ∃ (r : Fin 10000) (k : Fin 128), i = ix2 r k := ⟨i 0, i 1, eq_ix2 i⟩
  rw [Read.val_main_v10_apply, Read.val_main_v7_apply, Read.val_main_v9_apply, Read.val_main_v8_apply]
  simp only [Read.val_main_v6_apply, Read.val_main_v5_apply, Read.val_main_v4_apply, Read.val_main_v1_apply,
    Read.val_main_v0_apply, Read.val_main_v3_apply, Read.val_main_v2_apply, Read.val_main_call0_v0_apply,
    Read.val_main_call0_cst_apply, lidx7, ridx7, lidx6, ridx6, lidx1, ridx1, lidx0, ridx0, bidx1, bidx2,
    Ideal.addf_def, Ideal.maximumf_def, Ideal.ofBits_def, Ideal.ofBits_zero_f32]
  rfl

end Cert.RefReading

end
-- ==== Proof.RealInputs.lean ====
/-
  The precondition says every entry of every input array is below +infinity in absolute value; on the extended
  reals that is: every entry is a real number.
-/
import proofs.«151624_g39788577030959_cont_8to1_b_55_6_alg».proof.Proof.Layers
import proofs.«151624_g39788577030959_cont_8to1_b_55_6_alg».proof.Pre_finite_inputs
import Idealize.ShloMosaic.Lib.ReduceAll

noncomputable section

namespace Cert.RealInputs

open Idealize.ShloMosaic Idealize.ShloMosaic.ValueIdx Cert.Pre_finite_inputs Cert.Layers

/-- An extended real whose absolute value `max x (-x)` is below +infinity is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- The scalar shape has one index. -/
private instance : Subsingleton S_.Idx := ⟨fun a b => funext fun d => d.elim0⟩

/-- The word `0x7F800000` denotes +infinity. -/
private theorem inf_word : Ideal.ofBits .f32 0x7F800000#32 = (⊤ : EReal) := by simp [Ideal.ofBits, Ideal.ieee]

/-- One entry of one comparison `|x| < +inf` (the bound a broadcast scalar constant) that came out true: the entry is real. -/
private theorem entry_real {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    IsReal (x i) := by
  have h' : Ideal.cmp .olt (max (x i) (-(x i))) (Ideal.ofBits .f32 0x7F800000#32) = 1#1 := h
  rw [inf_word] at h'
  refine isReal_of_abs_lt_top (x i) ?_
  by_contra hn
  simp [Ideal.cmp, hn] at h'

/-- The conjunction over all entries of `|x| < +inf`, true: every entry of `x` is real. -/
private theorem all_real {s : Shape} {axes : List (Fin s.rank)} (hb : S_.BroadcastsInDim s (![] : Fin 0 → Fin s.rank))
    (hr : s.ReducesTo axes S_) (hu : 0 < S_.numel) (x : FVec Ideal s .f32)
    (h : Host.reduce IntOp.andi (cmpf .olt (Host.absf x) (broadcastInDim s ![] hb (constant (F := Ideal) S_ .f32 0x7F800000#32)))
      (constantI S_ 1 1#1) hr hu ix0 = 1#1) (i : s.Idx) : IsReal (x i) :=
  entry_real hb x i (Host.reduce_andi_all _ _ hr hu ix0 h i)

/-- The printed predicate, all ones, makes every entry of the six arrays a real number. -/
theorem real_of_pre [Cert.Pre_finite_inputs.Facts] (x0 : FVec Ideal S10000x128 .f32) (x1 : FVec Ideal S10000x10000 .f32)
    (x2 : FVec Ideal S128x128 .f32) (x3 : FVec Ideal S128 .f32) (x4 : FVec Ideal S128x128 .f32) (x5 : FVec Ideal S128 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have h0 := congrFun h ValueIdx.ix0
  dsimp only [fn, fn_part1, andi] at h0
  simp only [IntOp.andi_eq_one] at h0
  obtain ⟨⟨⟨⟨⟨h0, h1⟩, h2⟩, h3⟩, h4⟩, h5⟩ := h0
  exact ⟨all_real _ _ _ x0 h0, all_real _ _ _ x1 h1, all_real _ _ _ x2 h2, all_real _ _ _ x3 h3, all_real _ _ _ x4 h4,
    all_real _ _ _ x5 h5⟩

end Cert.RealInputs

end
-- ==== Proof.lean ====
/-
  The certificate of a two-layer graph convolution kernel against its jnp reference.

  The kernel runs a 2 × 25 grid: the first phase fills a hidden layer `max ((adj · x) · w1 + b1, 0)` in scratch, 400
  rows a point; the second phase writes `(adj · hidden) · w2 + b2`, 400 rows a point.  The reference computes
  `adj · (x · w1)` and `adj · (hidden · w2)`.  At the extended reals the two bracketings of the triple products agree
  when every entry is a real number, which the precondition says of the inputs and which the clamped first layer
  inherits.  The three frames are the two kernel runs (the same text at the two instances) and the reference's run
  with its result dropped; nothing was rewritten between the kernel and its idealization.
-/
import proofs.«151624_g39788577030959_cont_8to1_b_55_6_alg».proof.Defs
import proofs.«151624_g39788577030959_cont_8to1_b_55_6_alg».proof.Proof.Gen.Kernel
import proofs.«151624_g39788577030959_cont_8to1_b_55_6_alg».proof.Proof.Gen.KernelIdeal
import proofs.«151624_g39788577030959_cont_8to1_b_55_6_alg».proof.Proof.Gen.ReferenceIdeal
import proofs.«151624_g39788577030959_cont_8to1_b_55_6_alg».proof.Proof.Gen.ReferenceIdeal.Run
import proofs.«151624_g39788577030959_cont_8to1_b_55_6_alg».proof.Proof.Gen.ReferenceIdeal.Read
import proofs.«151624_g39788577030959_cont_8to1_b_55_6_alg».proof.Proof.Gen.Pre_finite_inputs
import proofs.«151624_g39788577030959_cont_8to1_b_55_6_alg».proof.Proof.BitsSchedule
import proofs.«151624_g39788577030959_cont_8to1_b_55_6_alg».proof.Proof.IdealValue
import proofs.«151624_g39788577030959_cont_8to1_b_55_6_alg».proof.Proof.RealLaw
import proofs.«151624_g39788577030959_cont_8to1_b_55_6_alg».proof.Proof.RefReading
import proofs.«151624_g39788577030959_cont_8to1_b_55_6_alg».proof.Proof.RealInputs
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Schedule.frame m ρ

/-- The idealized kernel runs and keeps its arguments. -/
theorem frame_ki : Cert.frame_KernelIdeal := fun m ρ _ => Cert.KernelIdeal.Schedule.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On arguments that agree and hold real numbers the kernel's result (both layers mixing first) is the reference's
    (both layers mapping the features first). -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hadj, hw1, hb1, hw2, -⟩ := Cert.RealInputs.real_of_pre _ _ _ _ _ _ (hpre c)
  rw [Cert.ReferenceIdeal.Read.val_main_v10_eq, Cert.RefReading.result_eq,
    (hagree c).1, (hagree c).2.1, (hagree c).2.2.1, (hagree c).2.2.2.1, (hagree c).2.2.2.2.1, (hagree c).2.2.2.2.2]
  exact (Cert.RealLaw.net_eq _ _ _ _ _ _ hx hadj hw1 hb1 hw2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
